-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S131072 : Shape := ⟨1, ![131072]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S131072 : S_.BroadcastsInDim S131072 (![] : Fin 0 → Fin S131072.rank)
  reducesTo_S131072_S_d0 : S131072.ReducesTo [0] S_

variable [Facts]

def fn {F : FTy → Type} [FloatOps F] (main_arg0 : FVec F S131072x256 .f32) (main_arg1 : IVec S131072 32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_c_0 : IVec S_ 32 := constantI S_ 32 0#32
  let main_v4 : IVec S131072 32 := broadcastInDim S131072 ![] bcast_S_S131072 main_c_0
  let main_v5 : IVec S131072 1 := cmpi .sge main_arg1 main_v4
  let main_c_1 : IVec S_ 32 := constantI S_ 32 256#32
  let main_v6 : IVec S131072 32 := broadcastInDim S131072 ![] bcast_S_S131072 main_c_1
  let main_v7 : IVec S131072 1 := cmpi .slt main_arg1 main_v6
  let main_v8 : IVec S131072 1 := andi main_v5 main_v7
  let main_c_2 : IVec S_ 1 := constantI S_ 1 1#1
  let main_v9 : IVec S_ 1 := (fun x v => Host.reduce IntOp.andi x v reducesTo_S131072_S_d0 h_S_) main_v8 main_c_2
  let main_v10 : IVec S_ 1 := andi main_v3 main_v9
  main_v10
-- ==== Kernel.lean ====
abbrev S131072x256 : Shape := ⟨2, ![131072, 256]⟩
abbrev S131072 : Shape := ⟨1, ![131072]⟩
abbrev S131072x1 : Shape := ⟨2, ![131072, 1]⟩
abbrev S4096x256 : Shape := ⟨2, ![4096, 256]⟩
abbrev S4096x1 : Shape := ⟨2, ![4096, 1]⟩
abbrev S4096 : Shape := ⟨1, ![4096]⟩
abbrev S_ : Shape := ⟨0, ![]⟩
abbrev S1 : Shape := ⟨1, ![1]⟩

abbrev nBuf : Space → Nat
  | .hbm => 9
  | .vmem => 6
  | .smem => 0
  | _ => 0

abbrev bufTy : (tb : Table) → Fin (tcTables nBuf tb) → BufTy
  | .hbm, ⟨0, _⟩ => ⟨S131072x256, .f32⟩
  | .hbm, ⟨1, _⟩ => ⟨S131072, .i32⟩
  | .hbm, ⟨2, _⟩ => ⟨S131072x1, .i32⟩
  | .hbm, ⟨3, _⟩ => ⟨S131072x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1, .f32⟩
  | .local _ .vmem, ⟨0, _⟩ => ⟨S4096x256, .f32⟩
  | .local _ .vmem, ⟨1, _⟩ => ⟨S4096x256, .f32⟩
  | .local _ .vmem, ⟨2, _⟩ => ⟨S4096x1, .i32⟩
  | .local _ .vmem, ⟨3, _⟩ => ⟨S4096x1, .i32⟩
  | .local _ .vmem, ⟨4, _⟩ => ⟨S4096x1, .f32⟩
  | .local _ .vmem, ⟨5, _⟩ => ⟨S4096x1, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S131072_S131072x1 : S131072.ShapeCasts S131072x1
  inb_S4096x256_S4096x256_0_0 : ∀ a, (![0, 0] : Fin 2 → Nat) a + S4096x256.size a ≤ S4096x256.size a
  h_S4096x256 : 0 < S4096x256.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x256_d1_w32 : S4096x256.Iotas .tc 32 [1]
  broadcasts_S4096x1_S4096x256 : S4096x1.Broadcasts S4096x256
  reduces_S4096x256_S4096 : S4096x256.Reduces [1] S4096
  shapeCasts_S4096_S4096x1 : S4096.ShapeCasts S4096x1
  reducesTo_S131072x1_S_d0_1 : S131072x1.ReducesTo [0, 1] S_
  h_S_ : 0 < S_.numel
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S131072x1.size a
  hwx0_1 : ∀ i : grid0.Coords, EltTy.bits .i32 = 32 ∨ (Rect.block (s := S131072x1) S4096x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S131072x1.size a
  hwx0_2 : ∀ i : grid0.Coords, EltTy.bits .f32 = 32 ∨ (Rect.block (s := S131072x1) S4096x1.size (cc0_transform_2 i) (hinb0_2 i)).WholeWords (EltTy.packing .f32)

variable [Facts₀]

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131072x256 : Shape := ⟨2, ![131072, 256]⟩
abbrev S131072 : Shape := ⟨1, ![131072]⟩
abbrev S131072x1 : Shape := ⟨2, ![131072, 1]⟩
abbrev S_ : Shape := ⟨0, ![]⟩
abbrev S131072x1x1 : Shape := ⟨3, ![131072, 1, 1]⟩
abbrev S1 : Shape := ⟨1, ![1]⟩
abbrev S1x1x1 : Shape := ⟨3, ![1, 1, 1]⟩

abbrev nBuf : Space → Nat
  | .hbm => 46
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072, .i32⟩
  | .hbm, ⟨2, _⟩ => ⟨S131072x1, .i32⟩
  | .hbm, ⟨3, _⟩ => ⟨S_, .i32⟩
  | .hbm, ⟨4, _⟩ => ⟨S131072x1, .i32⟩
  | .hbm, ⟨5, _⟩ => ⟨S131072x1, .i1⟩
  | .hbm, ⟨6, _⟩ => ⟨S_, .i32⟩
  | .hbm, ⟨7, _⟩ => ⟨S131072x1, .i32⟩
  | .hbm, ⟨8, _⟩ => ⟨S131072x1, .i32⟩
  | .hbm, ⟨9, _⟩ => ⟨S131072x1, .i32⟩
  | .hbm, ⟨10, _⟩ => ⟨S131072x1x1, .i32⟩
  | .hbm, ⟨11, _⟩ => ⟨S1, .i32⟩
  | .hbm, ⟨12, _⟩ => ⟨S_, .i32⟩
  | .hbm, ⟨13, _⟩ => ⟨S131072x1x1, .i32⟩
  | .hbm, ⟨14, _⟩ => ⟨S131072x1x1, .i1⟩
  | .hbm, ⟨15, _⟩ => ⟨S1x1x1, .i32⟩
  | .hbm, ⟨16, _⟩ => ⟨S131072x1x1, .i32⟩
  | .hbm, ⟨17, _⟩ => ⟨S131072x1x1, .i1⟩
  | .hbm, ⟨18, _⟩ => ⟨S131072x1x1, .i1⟩
  | .hbm, ⟨19, _⟩ => ⟨S_, .i1⟩
  | .hbm, ⟨20, _⟩ => ⟨S131072x1, .i1⟩
  | .hbm, ⟨21, _⟩ => ⟨S131072x1, .f32⟩
  | .hbm, ⟨22, _⟩ => ⟨S_, .f32⟩
  | .hbm, ⟨23, _⟩ => ⟨S131072x1, .f32⟩
  | .hbm, ⟨24, _⟩ => ⟨S131072x1, .f32⟩
  | .hbm, ⟨25, _⟩ => ⟨S131072, .f32⟩
  | .hbm, ⟨26, _⟩ => ⟨S_, .f32⟩
  | .hbm, ⟨27, _⟩ => ⟨S131072, .f32⟩
  | .hbm, ⟨28, _⟩ => ⟨S131072, .f32⟩
  | .hbm, ⟨29, _⟩ => ⟨S_, .f32⟩
  | .hbm, ⟨30, _⟩ => ⟨S131072, .f32⟩
  | .hbm, ⟨31, _⟩ => ⟨S131072, .f32⟩
  | .hbm, ⟨32, _⟩ => ⟨S131072x256, .f32⟩
  | .hbm, ⟨33, _⟩ => ⟨S131072x256, .i1⟩
  | .hbm, ⟨34, _⟩ => ⟨S_, .f32⟩
  | .hbm, ⟨35, _⟩ => ⟨S_, .f32⟩
  | .hbm, ⟨36, _⟩ => ⟨S131072x256, .f32⟩
  | .hbm, ⟨37, _⟩ => ⟨S131072x256, .f32⟩
  | .hbm, ⟨38, _⟩ => ⟨S_, .f32⟩
  | .hbm, ⟨39, _⟩ => ⟨S131072, .f32⟩
  | .hbm, ⟨40, _⟩ => ⟨S131072, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S1, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst_1 : Ref sig .tc := ⟨.hbm, 34, rfl⟩
abbrev main_call1_v0 : Ref sig .tc := ⟨.hbm, 35, rfl⟩
abbrev main_call1_v1 : Ref sig .tc := ⟨.hbm, 36, rfl⟩
abbrev main_v9 : Ref sig .tc := ⟨.hbm, 37, rfl⟩
abbrev main_cst_2 : Ref sig .tc := ⟨.hbm, 38, rfl⟩
abbrev main_v10 : Ref sig .tc := ⟨.hbm, 39, rfl⟩
abbrev main_v11 : Ref sig .tc := ⟨.hbm, 40, rfl⟩
abbrev main_cst_3 : Ref sig .tc := ⟨.hbm, 41, rfl⟩
abbrev main_v12 : Ref sig .tc := ⟨.hbm, 42, rfl⟩
abbrev main_cst_4 : Ref sig .tc := ⟨.hbm, 43, rfl⟩
abbrev main_v13 : Ref sig .tc := ⟨.hbm, 44, rfl⟩
abbrev main_v14 : Ref sig .tc := ⟨.hbm, 45, rfl⟩

abbrev nD : Nat := 1
abbrev τ : Topo := Topo.v7x

variable {F : FTy → Type} [FloatOps F]

class Facts₀ : Prop where
  bcast_S131072_S131072x1_0 : S131072.BroadcastsInDim S131072x1 (![0] : Fin 1 → Fin S131072x1.rank)
  bcast_S_S131072x1 : S_.BroadcastsInDim S131072x1 (![] : Fin 0 → Fin S131072x1.rank)
  shapeCasts_S131072x1_S131072x1x1 : S131072x1.ShapeCasts S131072x1x1
  bcast_S_S131072x1x1 : S_.BroadcastsInDim S131072x1x1 (![] : Fin 0 → Fin S131072x1x1.rank)
  bcast_S1_S1x1x1_2 : S1.BroadcastsInDim S1x1x1 (![2] : Fin 1 → Fin S1x1x1.rank)
  bcast_S1x1x1_S131072x1x1_0_1_2 : S1x1x1.BroadcastsInDim S131072x1x1 (![0, 1, 2] : Fin 3 → Fin S131072x1x1.rank)
  reducesTo_S131072x1x1_S131072x1_d2 : S131072x1x1.ReducesTo [2] S131072x1
  h_S_ : 0 < S_.numel
  shapeCasts_S131072x1_S131072 : S131072x1.ShapeCasts S131072
  bcast_S_S131072 : S_.BroadcastsInDim S131072 (![] : Fin 0 → Fin S131072.rank)
  bcast_S131072x1_S131072x256_0_1 : S131072x1.BroadcastsInDim S131072x256 (![0, 1] : Fin 2 → Fin S131072x256.rank)
  bcast_S_S131072x256 : S_.BroadcastsInDim S131072x256 (![] : Fin 0 → Fin S131072x256.rank)
  reducesTo_S131072x256_S131072_d1 : S131072x256.ReducesTo [1] S131072
  reducesTo_S131072_S_d0 : S131072.ReducesTo [0] S_
  shapeCasts_S_S1 : S_.ShapeCasts S1
  gather_S131072x256_S131072x1x1_S131072x1_n_1_0_0_1_2_11_wf : GatherDims.WF S131072x256 S131072x1x1 S131072x1 [] [1] [0] [1] [0] 2 ![1, 1]

variable [Facts₀]

def gather_S131072x256_S131072x1x1_S131072x1_n_1_0_0_1_2_11 : GatherDims S131072x256 S131072x1x1 S131072x1 where
  offsetDims := []
  collapsedSliceDims := [1]
  operandBatchingDims := [0]
  startIndicesBatchingDims := [0]
  startIndexMap := [1]
  indexVectorDim := 2
  sliceSizes := ![1, 1]
  wf := gather_S131072x256_S131072x1x1_S131072x1_n_1_0_0_1_2_11_wf

class Facts : Prop extends Facts₀ where

variable [Facts]
-- ==== Proof.LibOneHotTake.lean ====
/-
  GENERAL LEMMAS (no program imported): a row entry taken at a label two ways, and the words that make the two agree.

  A Pallas kernel often cannot lower `take_along_axis` and takes `x[p, l]` instead as the row summed against the one-hot
  mask `[k = l]` of the lane counter; jnp's own `take_along_axis(x, l[:, None], axis=1)` prints as a wrap of negative
  labels, an in-range mask folded by `and`, a batched `stablehlo.gather` that clamps its start index, and a select
  against a fill word. This file reads each piece at an index:
    * `oneHot_sum`            — the masked sum over the C columns is the entry at the label, for a label below C;
    * `toNat_lt_of_signed_range`, `slt_zero_of_small`, `sge_zero_of_small`, `sle_of_small`, `clamp_of_small`
                                — a 32-bit word in [0, n) signed is below n unsigned; such a word is not negative, is at
                                  most any bound it is at most, and is its own value after the gather's signed clamp;
    * `foldl_andi_ones`, `reduce_andi_of_forall`
                                — a `stablehlo.reduce` by `and` from 1 over bits that are all 1 is 1 (the converse of
                                  the library's `Host.reduce_andi_eq_one`);
    * `rowTakeDims`, `gather_rowTake_apply`
                                — the gather of `take_along_axis` along axis 1 of an [N, C] operand (batching axis 0,
                                  collapsed and start-indexed axis 1, start indices [N, 1, 1]) reads, at row p, the
                                  operand at (p, start index of row p read signed and clamped into [0, C - 1]).
-/
import Idealize.ShloMosaic.PureOps.Reduce
import Idealize.ShloMosaic.Lib.ValueIdx
import Idealize.ShloMosaic.Lib.StableHlo.Predicate

noncomputable section

namespace Cert.LibOneHotTake

open Idealize.ShloMosaic Idealize.ShloMosaic.ValueIdx

/-! ## The one-hot masked sum -/

/-- Column k's word is the label exactly when k is the label's value (C columns, C below 2³²). -/
theorem col_word_eq_iff {C : Nat} (hC : C ≤ 2 ^ 32) (l : BitVec 32) (hl : l.toNat < C) (k : Fin C) :
    BitVec.ofNat 32 k.val = l ↔ k = ⟨l.toNat, hl⟩ := by
  constructor
  · intro h
    apply Fin.ext
    have := congrArg BitVec.toNat h
    rw [BitVec.toNat_ofNat, Nat.mod_eq_of_lt (by have := k.isLt; omega)] at this
    exact this
  · intro h
    subst h
    exact BitVec.eq_of_toNat_eq (by rw [BitVec.toNat_ofNat, Nat.mod_eq_of_lt (by omega)])

/-- THE ONE-HOT SUM. In any additive commutative monoid, a row summed against the mask "column k's word is the label",
    with `z = 0` in the masked-out places, is the row's entry at the label, for a label below the column count: every
    other column contributes zero. (On the extended reals `0 + a = a` for every a, so nothing is asked of the row.) -/
theorem oneHot_sum {M : Type} [AddCommMonoid M] {C : Nat} (hC : C ≤ 2 ^ 32) (x : Fin C → M) (z : M) (hz : z = 0)
    (l : BitVec 32) (hl : l.toNat < C) :
    ∑ k : Fin C, Scalar.select (IntOp.cmpi .eq (BitVec.ofNat 32 k.val) l) (x k) z = x ⟨l.toNat, hl⟩ := by
  rw [Finset.sum_eq_single (⟨l.toNat, hl⟩ : Fin C)]
  · have h1 : IntOp.cmpi .eq (BitVec.ofNat 32 (⟨l.toNat, hl⟩ : Fin C).val) l = 1#1 :=
      StableHlo.Predicate.cmpi_eq_iff.mpr ((col_word_eq_iff hC l hl ⟨l.toNat, hl⟩).mpr rfl)
    rw [h1, select_one]
  · intro k _ hk
    have h0 : IntOp.cmpi .eq (BitVec.ofNat 32 k.val) l = 0#1 :=
      eq_zero_of_ne_one fun h => hk ((col_word_eq_iff hC l hl k).mp (StableHlo.Predicate.cmpi_eq_iff.mp h))
    rw [h0, select_zero, hz]
  · intro h; exact absurd (Finset.mem_univ _) h

/-! ## Small non-negative words -/

/-- A word in [0, n) as a signed number is below n as an unsigned one. -/
theorem toNat_lt_of_signed_range (w : BitVec 32) (n : Nat) (hn : n < 2 ^ 31) (h0 : IntOp.cmpi .sge w 0#32 = 1#1)
    (h1 : IntOp.cmpi .slt w (BitVec.ofNat 32 n) = 1#1) : w.toNat < n := by
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  rw [e0] at h0
  rw [StableHlo.Predicate.toInt_ofNat_small n hn] at h1
  have hw := w.isLt
  have hi := BitVec.toInt_eq_toNat_cond w
  by_cases hc : 2 * w.toNat < 2 ^ 32
  · rw [if_pos hc] at hi; omega
  · rw [if_neg hc] at hi; omega

/-- A word below 2³¹ is not negative, -/
theorem slt_zero_of_small (w : BitVec 32) (h : w.toNat < 2 ^ 31) : IntOp.cmpi .slt w 0#32 = 0#1 :=
  eq_zero_of_ne_one fun e => by
    have := (StableHlo.Predicate.slt_iff_toNat h (by decide)).mp e
    simp at this
/-- is at least zero, -/
theorem sge_zero_of_small (w : BitVec 32) (h : w.toNat < 2 ^ 31) : IntOp.cmpi .sge w 0#32 = 1#1 :=
  (StableHlo.Predicate.sge_iff_toNat h (by decide)).mpr (by simp)
/-- is at most the word of any bound below 2³¹ that its value is at most, -/
theorem sle_of_small (w : BitVec 32) (n : Nat) (hn : n < 2 ^ 31) (h : w.toNat ≤ n) :
    IntOp.cmpi .sle w (BitVec.ofNat 32 n) = 1#1 :=
  (StableHlo.Predicate.sle_iff_toNat (by omega) (by rw [BitVec.toNat_ofNat, Nat.mod_eq_of_lt (by omega)]; exact hn)).mpr (by
    rw [BitVec.toNat_ofNat, Nat.mod_eq_of_lt (by omega)]; exact h)
/-- and, read signed and clamped into [0, n], is its own value. -/
theorem clamp_of_small (w : BitVec 32) (n : Nat) (hn : n < 2 ^ 31) (h : w.toNat ≤ n) : min w.toInt.toNat n = w.toNat := by
  rw [StableHlo.Predicate.toInt_eq_toNat_of_lt (by omega), Int.toNat_natCast]
  omega

/-! ## An all-reduction by `and` over ones -/

/-- A left fold by `and` from 1 over bits that are all 1 is 1. -/
theorem foldl_andi_ones {ι : Type} (f : ι → BitVec 1) : ∀ (L : List ι), (∀ n ∈ L, f n = 1#1) →
    L.foldl (fun r n => IntOp.andi r (f n)) 1#1 = 1#1
  | [], _ => rfl
  | a :: L, h => by
    rw [List.foldl_cons, h a List.mem_cons_self]
    exact foldl_andi_ones f L fun n hn => h n (List.mem_cons_of_mem _ hn)

/-- A `stablehlo.reduce` by `and`, from an initial value whose element is 1, of an operand that is 1 everywhere is 1 at
    every result index, whatever axes it reduces. -/
theorem reduce_andi_of_forall {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_ones _ _ fun n _ => hx n

/-! ## `take_along_axis` along axis 1: the batched gather -/

/-- The dimension numbers jnp's `take_along_axis(x, idx, axis=1)` gives `stablehlo.gather` for an operand [N, C], start
    indices [N, 1, 1] and a result [N, 1]: no offset axes, axis 1 collapsed and start-indexed, axis 0 batching on both
    sides, the index vector on axis 2, slices of one element. Their conditions are decided on a program's literal shapes;
    a printed record with these fields is this one (its fields agree and `wf` is a proof). -/
abbrev rowTakeDims (N C : Nat)
    (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- THE GATHER READ AT ROW p: the operand's row p at the start index `idx[p, 0, 0]`, read signed and clamped into
    [0, C − 1] as StableHLO's gather clamps every start index. -/
theorem gather_rowTake_apply {α : Type} {N C w : Nat} (hC : 0 < C)
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (p : Fin N) :
    Host.gather (rowTakeDims N C wf) x idx (ix2 p (0 : Fin 1))
      = x (ix2 p ⟨min (idx (ix3 p (0 : Fin 1) (0 : Fin 1))).toInt.toNat (C - 1), by omega⟩) := by
  unfold Host.gather
  refine congrArg x (funext fun a => Fin.ext ?_)
  match a with
  | ⟨0, _⟩ =>
    show (rowTakeDims N C wf).start (ix2 p (0 : Fin 1)) idx 0 + (rowTakeDims N C wf).batchCoord (ix2 p (0 : Fin 1)) 0
      + (rowTakeDims N C wf).offCoord (ix2 p (0 : Fin 1)) 0 = p.val
    rw [GatherDims.start_batching (rowTakeDims N C wf) _ _ 0 (List.mem_singleton.mpr rfl),
      GatherDims.offCoord_eq_zero (rowTakeDims N C wf) _ 0
        (fun h => ((GatherDims.mem_sKept _ _).mp h).2 (List.mem_singleton.mpr rfl)), Nat.zero_add, Nat.add_zero]
    rfl
  | ⟨1, _⟩ =>
    show (rowTakeDims N C wf).start (ix2 p (0 : Fin 1)) idx 1 + (rowTakeDims N C wf).batchCoord (ix2 p (0 : Fin 1)) 1
      + (rowTakeDims N C wf).offCoord (ix2 p (0 : Fin 1)) 1 = min (idx (ix3 p (0 : Fin 1) (0 : Fin 1))).toInt.toNat (C - 1)
    rw [GatherDims.batchCoord_eq_zero (rowTakeDims N C wf) _ 1 (by show (1 : Fin 2) ∉ ([0] : List (Fin 2)); decide),
      GatherDims.offCoord_eq_zero (rowTakeDims N C wf) _ 1
        (fun h => ((GatherDims.mem_sKept _ _).mp h).1 (List.mem_singleton.mpr rfl))]
    simp only [Nat.add_zero]
    unfold GatherDims.start
    rw [dif_pos (show (1 : Fin 2) ∈ (rowTakeDims N C wf).startIndexMap from List.mem_singleton.mpr rfl)]
    have hsi : (rowTakeDims N C wf).siIdx (ix2 p (0 : Fin 1))
        ⟨List.idxOf (1 : Fin 2) (rowTakeDims N C wf).startIndexMap, List.idxOf_lt_length_iff.2 (List.mem_singleton.mpr rfl)⟩
        = ix3 p (0 : Fin 1) (0 : Fin 1) := funext fun b => Fin.ext (by
      match b with
      | ⟨0, _⟩ => rfl
      | ⟨1, _⟩ => rfl
      | ⟨2, _⟩ => rfl)
    rw [hsi]
    rfl

end Cert.LibOneHotTake

end
-- ==== Proof.RowLoss.lean ====
/-
  The mathematics both programs compute, over the extended reals.

  For a row of 256 scores `x` and a score `g` (the row's true-class score) the row's loss is
      rowLoss x g = 1 / (g + c) + Σ_k [x k > g] · x k,       c the f32 literal 0.1,
  and the result is the mean of the 131072 rows' losses: (0 + Σ_p rowLoss (x p) (g p)) / 131072.
  The two programs differ only in how they obtain `g`: the reference reads `x` at the label's column, the kernel sums
  the row against the one-hot mask `[k = label]`. For a label in [0, 256) the mask has exactly one set column, every
  other term of the sum is the literal zero, and `0 + a = a` on the extended reals whatever `a` is (finite or not): the
  masked sum IS the entry (`oneHotPick_eq`). No other law is needed, and finiteness of the scores is never used.
-/
import Idealize.ShloMosaic.PureOps.Ideal
import Idealize.ShloMosaic.PureOps.Ideal.Laws
import Idealize.ShloMosaic.Lib.ValueIdx
import proofs.«428295_j35270271434962_3_alg».proof.Proof.LibOneHotTake

noncomputable section

namespace Cert.CellLoss

open Idealize.ShloMosaic Idealize.ShloMosaic.ValueIdx

/-- The float literals both programs carry, as the extended reals their words denote: 0.1 (rounded to f32), 1, 0 and
    131072 = 2¹⁷. The same word stands on both sides, so none is ever evaluated except the zero. -/
abbrev cOff : EReal := Ideal.ofBits .f32 0x3DCCCCCD#32
abbrev cOne : EReal := Ideal.ofBits .f32 0x3F800000#32
abbrev cZero : EReal := Ideal.ofBits .f32 0x00000000#32
abbrev cRows : EReal := Ideal.ofBits .f32 0x48000000#32

/-- The sum of the row's scores strictly above `g`. -/
def marginSum (x : Fin 256 → EReal) (g : EReal) : EReal :=
  ∑ k : Fin 256, Scalar.select (Ideal.cmp .ogt (x k) g) (x k) cZero

/-- One row's loss from its scores and its true-class score. -/
def rowLoss (x : Fin 256 → EReal) (g : EReal) : EReal :=
  Ideal.div cOne (g + cOff) + marginSum x g

/-- The row summed against the one-hot mask of the label word: column `k` counts when the word `k` IS the label. -/
def oneHotPick (x : Fin 256 → EReal) (l : BitVec 32) : EReal :=
  ∑ k : Fin 256, Scalar.select (IntOp.cmpi .eq (BitVec.ofNat 32 k.val) l) (x k) cZero

/-- For a label in [0, 256) the masked sum is the row's entry at the label: every other column contributes the
    literal zero (the general one-hot sum, at 256 columns and the f32 zero word). -/
theorem oneHotPick_eq (x : Fin 256 → EReal) (l : BitVec 32) (hl : l.toNat < 256) :
    oneHotPick x l = x ⟨l.toNat, hl⟩ :=
  Cert.LibOneHotTake.oneHot_sum (by decide) x cZero Ideal.ofBits_zero_f32 l hl

/-- The result: the mean over the 131072 rows, as both programs' host lines spell it. -/
def meanLoss (rows : (⟨1, ![131072]⟩ : Shape).Idx → EReal) : EReal :=
  Ideal.div (cZero + ∑ j, rows j) cRows

/-- Row p's loss from the score array and the label vector: the row's scores at their entry in the label's column. -/
def rowLossAt (x : (⟨2, ![131072, 256]⟩ : Shape).Idx → EReal) (l : (⟨1, ![131072]⟩ : Shape).Idx → BitVec 32)
    (p : Fin 131072) : EReal :=
  rowLoss (fun k => x (ix2 p k)) (x (ix2 p ⟨(l (ix1 p)).toNat % 256, Nat.mod_lt _ (by decide)⟩))

/-- The same with the true-class score obtained as the kernel obtains it, by the one-hot masked sum. -/
def rowLossMasked (x : (⟨2, ![131072, 256]⟩ : Shape).Idx → EReal) (l : (⟨1, ![131072]⟩ : Shape).Idx → BitVec 32)
    (p : Fin 131072) : EReal :=
  rowLoss (fun k => x (ix2 p k)) (oneHotPick (fun k => x (ix2 p k)) (l (ix1 p)))

/-- Where the label is a column the two agree. -/
theorem rowLossMasked_eq (x : (⟨2, ![131072, 256]⟩ : Shape).Idx → EReal) (l : (⟨1, ![131072]⟩ : Shape).Idx → BitVec 32)
    (p : Fin 131072) (hl : (l (ix1 p)).toNat < 256) : rowLossMasked x l p = rowLossAt x l p := by
  unfold rowLossMasked rowLossAt
  rw [oneHotPick_eq _ _ hl]
  exact congrArg (rowLoss _) (congrArg x (congrArg (ix2 p) (Fin.ext (Nat.mod_eq_of_lt hl).symm)))

/-- The one-element result of both programs: the mean of the rows' losses. -/
def result (x : (⟨2, ![131072, 256]⟩ : Shape).Idx → EReal) (l : (⟨1, ![131072]⟩ : Shape).Idx → BitVec 32) :
    (⟨1, ![1]⟩ : Shape).Idx → EReal :=
  fun _ => meanLoss fun j => rowLossAt x l ⟨(j 0).val, (j 0).isLt⟩

/-- A sum over an [n, 1] column is the sum over its n rows. -/
theorem sum_column {n : Nat} (f : (⟨2, ![n, 1]⟩ : Shape).Idx → EReal) :
    ∑ i, f i = ∑ j : (⟨1, ![n]⟩ : Shape).Idx, f (ix2 (j 0) (0 : Fin 1)) := by
  rw [sum_idx2]
  simp only [Fin.sum_univ_one]
  exact (Equiv.sum_comp (⟨fun j => j 0, fun a => ix1 a, fun j => (eq_ix1 j).symm, fun _ => rfl⟩ :
    (⟨1, ![n]⟩ : Shape).Idx ≃ Fin n) (fun a => f (ix2 a (0 : Fin 1)))).symm

end Cert.CellLoss

end
-- ==== Proof.LabelRange.lean ====
/-
  The precondition read back: every label is a column.

  The printed precondition is the conjunction of "every score is finite" and "every label word l satisfies
  0 ≤ l and l < 256 as a signed number", each an all-reduction by `and` of a pointwise test. From the whole being 1 the
  second all-reduction is 1, so the test is 1 at every row, and a word in [0, 256) signed is below 256 unsigned:
  the label names one of the 256 columns of its row. The finiteness half is never opened.
-/
import proofs.«428295_j35270271434962_3_alg».proof.Pre_finite_inputs
import proofs.«428295_j35270271434962_3_alg».proof.Proof.RowLoss
import Idealize.ShloMosaic.Lib.ReduceAll
import Idealize.ShloMosaic.Lib.Affine

noncomputable section

namespace Cert.CellLoss

open Idealize.ShloMosaic

/-- The rank-0 shape has one index. -/
instance subsingleton_scalarIdx : Subsingleton Cert.Pre_finite_inputs.S_.Idx := ⟨fun _ _ => funext fun d => d.elim0⟩

/-- Where the precondition holds, the label of every row is below 256 as an unsigned word. -/
theorem label_lt {F : FTy → Type} [FloatOps F] [Cert.Pre_finite_inputs.Facts]
    (x : FVec F Cert.Pre_finite_inputs.S131072x256 .f32) (l : IVec Cert.Pre_finite_inputs.S131072 32)
    (h : Cert.Pre_finite_inputs.fn (F := F) x l = fun _ => 1#1) (p : Cert.Pre_finite_inputs.S131072.Idx) :
    (l p).toNat < 256 := by
  have e := congrFun h ValueIdx.ix0
  dsimp only [Cert.Pre_finite_inputs.fn] at e
  have e2 := (IntOp.andi_eq_one.mp e).2
  have e3 := Host.reduce_andi_all _ _ _ _ _ e2 p
  obtain ⟨h0, h1⟩ := IntOp.andi_eq_one.mp e3
  exact Cert.LibOneHotTake.toNat_lt_of_signed_range (l p) 256 (by decide) h0 h1

end Cert.CellLoss

end
-- ==== Proof.BlockRows.lean ====
/-
  One block of the kernel, row by row.

  The body takes a [4096, 256] block `x` of scores and the [4096, 1] block `l` of their labels and stores a [4096, 1]
  column. Read at row r that column is
      1 / (g + c) + Σ_k [x r k > g] · x r k      with      g = Σ_k [k = l r] · x r k,
  that is `rowLoss` of row r at its one-hot pick: the two lane reductions are sums over the 256 columns, the lane
  counter along axis 1 is the column's word, the keepdims casts [4096] → [4096, 1] and the broadcasts
  [4096, 1] → [4096, 256] only move a row's value to where it is used.
-/
import proofs.«428295_j35270271434962_3_alg».proof.Proof.Gen.KernelIdeal.Skeleton
import proofs.«428295_j35270271434962_3_alg».proof.Proof.RowLoss
import Idealize.ShloMosaic.Lib.Pipeline.Value
import Idealize.ShloMosaic.Lib.ValueIdx
import Idealize.ShloMosaic.PureOps.Ideal.Laws

noncomputable section

namespace Cert.KernelIdeal.CellValue

open Cert.KernelIdeal Cert.KernelIdeal.Gen Cert.CellLoss
open Idealize.ShloMosaic Idealize.ShloMosaic.ValueIdx

variable {α : Type}

/-- An [n] vector kept as an [n, 1] column reads, at (r, 0), the vector at r. -/
theorem column_apply {n : Nat} (v : (⟨1, ![n]⟩ : Shape).Idx → α) (h : (⟨1, ![n]⟩ : Shape).ShapeCasts ⟨2, ![n, 1]⟩) (r : Fin n) :
    shapeCast (⟨2, ![n, 1]⟩ : Shape) v h (ix2 r (0 : Fin 1)) = v (ix1 r) :=
  shapeCast_apply v h (ix2 r (0 : Fin 1)) (ix1 r) (by
    rw [Shape.rowMajor_val_one, Shape.rowMajor_val_two]
    show r.val = r.val * 1 + 0
    omega)

/-- A [4096, 1] column laid across the 256 lanes reads, at (r, k), the column at (r, 0). -/
theorem across_lanes_apply (v : S4096x1.Idx → α) (h : S4096x1.Broadcasts S4096x256) (r : Fin 4096) (k : Fin 256) :
    broadcastTo S4096x256 v h (ix2 r k) = v (ix2 r (0 : Fin 1)) :=
  broadcastTo_apply v h (ix2 r k) (ix2 r (0 : Fin 1)) (fun a => match a with
    | ⟨0, _⟩ => by show r.val = if (4096 : Nat) = 1 then 0 else r.val; rw [if_neg (by decide)]
    | ⟨1, _⟩ => by show 0 = if (1 : Nat) = 1 then 0 else k.val; rw [if_pos rfl])

/-- A lane reduction by addition reads, at row r, the sum of the row over its 256 columns. -/
theorem lane_sum_apply (v : FVec Ideal S4096x256 .f32) (h : S4096x256.Reduces [1] S4096) (hφ : FKind.Formats .f32)
    (hacc : (0x00000000#32 : BitVec 32) = 0x00000000#32) (r : Fin 4096) :
    multiReduction .add [1] S4096 v 0x00000000#32 h hφ hacc (ix1 r) = ∑ k : Fin 256, v (ix2 r k) := by
  refine (Ideal.multiReduction_add_single v 0x00000000#32 h hφ hacc (ix1 r)).trans ?_
  exact Finset.sum_congr rfl fun k _ => congrArg v (funext fun a => Fin.ext (by
    match a with
    | ⟨0, _⟩ => rfl
    | ⟨1, _⟩ => rfl))

/-- The block's scores with every column but the label's replaced by the literal zero. -/
def maskedScores (x : Vec Ideal S4096x256 .f32) (l : Vec Ideal S4096x1 .i32) : FVec Ideal S4096x256 .f32 :=
  select (cmpi .eq (iota .tc S4096x256 32 [1] iota_S4096x256_d1_w32)
      (broadcastTo S4096x256 (shapeCast S4096x1 l shapeCasts_S4096x1_S4096x1) broadcasts_S4096x1_S4096x256))
    x (broadcast S4096x256 (FloatOps.ofBits .f32 0x00000000#32))

/-- At (r, k) the masked block is the score when the column's word is the row's label, else the literal zero. -/
theorem maskedScores_apply (x : Vec Ideal S4096x256 .f32) (l : Vec Ideal S4096x1 .i32) (r : Fin 4096) (k : Fin 256) :
    maskedScores x l (ix2 r k)
      = Scalar.select (IntOp.cmpi .eq (BitVec.ofNat 32 k.val) (l (ix2 r (0 : Fin 1)))) (x (ix2 r k)) cZero := by
  unfold maskedScores
  rw [select_apply]
  show Scalar.select (IntOp.cmpi .eq (iota .tc S4096x256 32 [1] iota_S4096x256_d1_w32 (ix2 r k))
      (broadcastTo S4096x256 (shapeCast S4096x1 l shapeCasts_S4096x1_S4096x1) broadcasts_S4096x1_S4096x256 (ix2 r k)))
    (x (ix2 r k)) _ = _
  rw [iota_single_apply, across_lanes_apply, shapeCast_self]
  rfl

/-- A row of the masked block sums to the row's one-hot pick. -/
theorem maskedScores_row (x : Vec Ideal S4096x256 .f32) (l : Vec Ideal S4096x1 .i32) (r : Fin 4096) :
    ∑ k : Fin 256, maskedScores x l (ix2 r k) = oneHotPick (fun k => x (ix2 r k)) (l (ix2 r (0 : Fin 1))) := by
  unfold oneHotPick
  exact Finset.sum_congr rfl fun k _ => maskedScores_apply x l r k

/-- The body's stored column at row r: the row's loss at the row's one-hot pick. -/
theorem payload_row (x : Vec Ideal S4096x256 .f32) (l : Vec Ideal S4096x1 .i32) (r : Fin 4096) :
    k0_pay1 (F := Ideal) x l (ix2 r (0 : Fin 1))
      = rowLoss (fun k => x (ix2 r k)) (oneHotPick (fun k => x (ix2 r k)) (l (ix2 r (0 : Fin 1)))) := by
  unfold k0_pay1
  dsimp only
  rw [addf_apply, divf_apply, addf_apply, column_apply, column_apply, lane_sum_apply, lane_sum_apply]
  unfold rowLoss marginSum
  rw [← maskedScores_row x l r]
  refine congrArg₂ (· + ·) rfl (Finset.sum_congr rfl fun k _ => ?_)
  rw [select_apply, cmpf_apply, across_lanes_apply, column_apply, lane_sum_apply]
  rfl

end Cert.KernelIdeal.CellValue

end
-- ==== Proof.KernelArray.lean ====
/-
  The kernel's program, read as values.

  The region runs the body at 32 points; point t takes rows 4096·t … 4096·t + 4095 of the scores and of the label
  column and writes the same rows of a [131072, 1] column. So the column the region leaves holds, at row p, the loss of
  row p with its true-class score taken by the one-hot sum (`lossColumn`); the blocks tile the column, so that is the
  whole array. The label column the region reads is the label vector reshaped by the host line before it. The host
  lines after the region sum the column from zero, divide by 131072 and reshape: the mean of the rows' losses.
-/
import proofs.«428295_j35270271434962_3_alg».proof.Proof.Gen.KernelIdeal.Frame
import proofs.«428295_j35270271434962_3_alg».proof.Proof.BlockRows
import Idealize.ShloMosaic.Lib.Pipeline.Value
import Idealize.ShloMosaic.Lib.StableHlo.Run
import Idealize.ShloMosaic.Lib.Tactic

set_option maxRecDepth 16384

noncomputable section

namespace Cert.KernelIdeal.CellValue

open Cert.KernelIdeal Cert.KernelIdeal.Gen Cert.CellLoss
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The scores, the label column and the two input blocks at a point, each at its literal type. -/
abbrev scoreArr (c : Dev nD) : S131072x256.Idx → EReal := V m c main_arg0
abbrev labelCol (c : Dev nD) : S131072x1.Idx → BitVec 32 := V m c main_v0
abbrev scoreBlk (c : Dev nD) (t : Fin cfg0.N) : Vec Ideal S4096x256 .f32 := iblk m c 0 t
abbrev labelBlk (c : Dev nD) (t : Fin cfg0.N) : Vec Ideal S4096x1 .i32 := iblk m c 1 t

/-- The column of row losses over a score array and a label column. -/
def lossColumn (x : S131072x256.Idx → EReal) (lc : S131072x1.Idx → BitVec 32) : S131072x1.Idx → EReal := fun i =>
  rowLoss (fun k => x (ix2 ⟨(i 0).val, (i 0).isLt⟩ k))
    (oneHotPick (fun k => x (ix2 ⟨(i 0).val, (i 0).isLt⟩ k)) (lc (ix2 ⟨(i 0).val, (i 0).isLt⟩ (0 : Fin 1))))

/-- Every window's block index at point t is (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The score block at point t is rows 4096·t … of the score array. -/
theorem scoreBlk_apply (c : Dev nD) (t : Fin cfg0.N) (y : S4096x256.Idx) (i : S131072x256.Idx)
    (h0 : (i 0).val = t.val * 4096 + (y 0).val) (h1 : (i 1).val = (y 1).val) :
    scoreBlk m c t y = scoreArr m c i := by
  obtain ⟨e0, e1, -, -, -, -⟩ := idx_facts t
  show V m c main_arg0 (((cfg0.win 0).blk t).view.emb y) = V m c main_arg0 i
  refine congrArg (V m c main_arg0) (funext fun a => Fin.ext ?_)
  match a with
  | ⟨0, _⟩ => show win0_0.index t (0 : Fin 2) * 4096 + 1 * (y 0).val = (i 0).val; omega
  | ⟨1, _⟩ => show win0_0.index t (1 : Fin 2) * 256 + 1 * (y 1).val = (i 1).val; omega

/-- The label block at point t is the same rows of the label column. -/
theorem labelBlk_apply (c : Dev nD) (t : Fin cfg0.N) (y : S4096x1.Idx) (i : S131072x1.Idx)
    (h0 : (i 0).val = t.val * 4096 + (y 0).val) (h1 : (i 1).val = (y 1).val) :
    labelBlk m c t y = labelCol m c i := by
  obtain ⟨-, -, e0, e1, -, -⟩ := idx_facts t
  show V m c main_v0 (((cfg0.win 1).blk t).view.emb y) = V m c main_v0 i
  refine congrArg (V m c main_v0) (funext fun a => Fin.ext ?_)
  match a with
  | ⟨0, _⟩ => show win0_1.index t (0 : Fin 2) * 4096 + 1 * (y 0).val = (i 0).val; omega
  | ⟨1, _⟩ => show win0_1.index t (1 : Fin 2) * 1 + 1 * (y 1).val = (i 1).val; omega

/-- What point t writes back is block t of the loss column. -/
theorem flushed_eq (c : Dev nD) (t : Fin cfg0.N) :
    (dats m 0 c).flushed 2 t = ((cfg0.win 2).blk t).view.read (Elt Ideal) (lossColumn (scoreArr m c) (labelCol m c)) := by
  show (cfg0.win 2).cut (grid0.coords t) ((dats m 0 c).after 2 t) = _
  rw [after0_2]
  unfold out0_2
  rw [View.canon_unit_zero hz]
  simp only [View.ld_unit_zero (S := S4096x256) hz, View.ld_unit_zero (S := S4096x1) hz]
  obtain ⟨-, -, -, -, e0, e1⟩ := idx_facts t
  funext j
  have hj0 : (j 0).val < 4096 := (j 0).isLt
  have hj1 : (j 1).val < 1 := (j 1).isLt
  have ej : (j : S4096x1.Idx) = ix2 (⟨(j 0).val, hj0⟩ : Fin 4096) (0 : Fin 1) := funext fun a => Fin.ext (by
    match a with
    | ⟨0, _⟩ => rfl
    | ⟨1, _⟩ => show (j 1).val = 0; omega)
  show k0_pay1 (F := Ideal) (scoreBlk m c t) (labelBlk m c t) j = lossColumn (scoreArr m c) (labelCol m c) (((cfg0.win 2).blk t).view.emb j)
  refine (congrArg (k0_pay1 (F := Ideal) (scoreBlk m c t) (labelBlk m c t)) ej).trans ?_
  refine (payload_row (scoreBlk m c t) (labelBlk m c t) ⟨(j 0).val, hj0⟩).trans ?_
  unfold lossColumn
  have hp : ((((cfg0.win 2).blk t).view.emb j) 0).val = t.val * 4096 + (j 0).val := by
    show win0_2.index t (0 : Fin 2) * 4096 + 1 * (j 0).val = _; omega
  have hx : (fun k : Fin 256 => scoreBlk m c t (ix2 (⟨(j 0).val, hj0⟩ : Fin 4096) k))
      = fun k : Fin 256 => scoreArr m c (ix2 ⟨((((cfg0.win 2).blk t).view.emb j) 0).val, ((((cfg0.win 2).blk t).view.emb j) 0).isLt⟩ k) :=
    funext fun k => scoreBlk_apply m c t _ _ hp rfl
  have hl : labelBlk m c t (ix2 (⟨(j 0).val, hj0⟩ : Fin 4096) (0 : Fin 1))
      = labelCol m c (ix2 ⟨((((cfg0.win 2).blk t).view.emb j) 0).val, ((((cfg0.win 2).blk t).view.emb j) 0).isLt⟩ (0 : Fin 1)) :=
    labelBlk_apply m c t _ _ hp rfl
  rw [hx, hl]

/-- An index of the column is in point t's block iff each coordinate is in the block's range. -/
theorem mem_blk (t : Fin cfg0.N) (i : S131072x1.Idx) :
    i ∈ ((cfg0.win 2).blk t).view.set ↔ ∀ a : Fin 2, win0_2.index t a * S4096x1.size a ≤ (i a).val ∧ (i a).val < win0_2.index t a * S4096x1.size a + S4096x1.size a := by
  show i ∈ ((View.whole main_v1).slice (win0_2.rect t)).set ↔ _
  rw [View.set_slice_whole, Rect.mem_set_unit]
  exact Iff.rfl

/-- Row p is written by point p / 4096. -/
theorem cover (i : S131072x1.Idx) : ∃ t : Fin cfg0.N, (cfg0.win 2).flush t = true ∧ i ∈ ((cfg0.win 2).blk t).view.set := by
  have hi0 : (i 0).val < 131072 := (i 0).isLt
  have hi1 : (i 1).val < 1 := (i 1).isLt
  have hN : cfg0.N = 32 := N_0
  let t : Fin cfg0.N := ⟨(i 0).val / 4096, by rw [hN]; omega⟩
  obtain ⟨-, -, -, -, e0, e1⟩ := idx_facts t
  have ht : t.val = (i 0).val / 4096 := rfl
  refine ⟨t, flush0_2 t, ?_⟩
  rw [mem_blk]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 1 ≤ (i 1).val ∧ (i 1).val < win0_2.index t (1 : Fin 2) * 1 + 1; omega

/-- The column the region leaves is the loss column. -/
theorem final (c : Dev nD) : (dats m 0 c).arrAt 2 cfg0.N = lossColumn (scoreArr m c) (labelCol m c) :=
  (dats m 0 c).arrAt_eq_of_cover 2 (lossColumn (scoreArr m c) (labelCol m c)) (fun t _ => flushed_eq m c t) cover

end Cert.KernelIdeal.CellValue

end
-- ==== Proof.KernelRun.lean ====
/-
  The kernel's run, with its result named.

  Before the region the host reshapes the label vector into the column the region reads, so the loss column is a
  function of the two arguments alone: at row p the loss of row p with the one-hot-summed score of label p. After the
  region the host sums the column from zero over both its axes, which at the extended reals is zero plus the sum over
  the rows, divides by 131072 and reshapes the scalar to one element: the mean of the rows' losses. Where every label
  is a column the one-hot sum is the entry, and the result is `result` of the arguments.
-/
import proofs.«428295_j35270271434962_3_alg».proof.Proof.KernelArray

set_option maxRecDepth 16384

noncomputable section

namespace Cert.KernelIdeal.CellValue

open Cert.KernelIdeal Cert.KernelIdeal.Gen Cert.CellLoss
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The label column the region reads is the label vector reshaped. -/
theorem labelCol_eq (c : Dev nD) :
    labelCol m c = shapeCast S131072x1 (m ((c : Thread nD τ).loc main_arg1)) shapeCasts_S131072_S131072x1 := by
  show StableHlo.after hostOps0 (fun b => m (c, b)) (Proc.devRef .tc main_v0) = _
  after_results
  rfl

/-- So the loss column is, at row p, the loss of row p at the one-hot-summed score of label p. -/
theorem lossColumn_apply (c : Dev nD) (i : S131072x1.Idx) :
    lossColumn (scoreArr m c) (labelCol m c) i
      = rowLossMasked (m ((c : Thread nD τ).loc main_arg0)) (m ((c : Thread nD τ).loc main_arg1)) ⟨(i 0).val, (i 0).isLt⟩ := by
  unfold lossColumn rowLossMasked
  rw [labelCol_eq, column_apply]
  show rowLoss (fun k => V m c main_arg0 _) (oneHotPick (fun k => V m c main_arg0 _) _) = _
  rw [V_main_arg0]

/-- The host lines after the region, as one function of the column. -/
def meanOfColumn (v : S131072x1.Idx → EReal) : S1.Idx → EReal :=
  shapeCast S1 (Host.divf (F := Ideal) (Host.reduceAdd (F := Ideal) v (constant (F := Ideal) S_ .f32 0x00000000#32) reducesTo_S131072x1_S_d0_1 h_S_)
    (constant (F := Ideal) S_ .f32 0x48000000#32)) shapeCasts_S_S1

/-- They leave the result at that function of the column the region left. -/
theorem tail_eq (c : Dev nD) :
    Pipeline.afterTail₀ cfgs (dats m) 0 (V0 m) [hostOps1] c main_v4 = meanOfColumn ((dats m 0 c).arrAt 2 cfg0.N) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v1)
      = (dats m 0 c).arrAt 2 cfg0.N :=
    Pipeline.withArrays_arr spec0 launch0.win.arr_inj c _ _ 2
  rw [e]
  rfl

/-- Summed from zero over both axes, divided and reshaped: the mean over the rows of the column's entries. -/
theorem meanOfColumn_eq (v : S131072x1.Idx → EReal) :
    meanOfColumn v = fun _ => meanLoss fun j => v (ix2 (⟨(j 0).val, (j 0).isLt⟩ : Fin 131072) (0 : Fin 1)) := by
  funext i
  unfold meanOfColumn
  rw [shapeCast_apply _ shapeCasts_S_S1 i ix0 (by
    have h1 := (S_.rowMajor ix0).isLt
    have h2 := (S1.rowMajor i).isLt
    have e1 : S_.numel = 1 := by decide
    have e2 : S1.numel = 1 := by decide
    omega)]
  show Ideal.div (Host.reduceAdd (F := Ideal) v (constant (F := Ideal) S_ .f32 0x00000000#32) reducesTo_S131072x1_S_d0_1 h_S_ ix0) cRows = _
  simp only [Host.reduceAdd, Ideal.hostReduceAdd_def]
  rw [Ideal.hostReduceAdd_total reducesTo_S131072x1_S_d0_1 (fun b => b.elim0) v _ ix0, sum_column]
  rfl

/-- THE KERNEL'S RUN: where every label is a column, every execution ends with the result at the mean of the rows'
    losses and the arguments unchanged. -/
theorem run (hl : ∀ (c : Dev nD) (p : S131072.Idx), (m ((c : Thread nD τ).loc main_arg1) p).toNat < 256) :
    θ_run defs (onTc (τ := τ) (main (F := Ideal))) ⟨m, fun _ => 0, ρ⟩ fun r => ∀ c : Dev nD,
      r.2.mem ((c : Thread nD τ).loc main_v4) = Cert.CellLoss.result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨?_, ?_, ?_⟩) (run_main m ρ)
  · refine ((h c).2 main_v4 (Pipeline.mem_restRefs_of main_v4 (by decide) (by decide))).trans ?_
    rw [tail_eq, final, meanOfColumn_eq]
    unfold Cert.CellLoss.result
    funext _
    refine congrArg meanLoss (funext fun j => ?_)
    rw [lossColumn_apply]
    exact rowLossMasked_eq _ _ _ (hl c _)
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)

end Cert.KernelIdeal.CellValue

end
-- ==== Proof.RefValue.lean ====
/-
  The reference, read as values where every label is a column.

  `take_along_axis` first adds 256 to a negative label, then tests 0 ≤ label ≤ 255, gathers the row's entry at the
  label clamped into [0, 255], and keeps it where the test holds (elsewhere its fill word). For a label word l below
  256 unsigned: l is not negative, so it is left as it is; both tests hold; the clamp does nothing; and the gathered
  entry is the row's entry in column l. Each row then adds 1 / (entry + c) to the sum from zero of its scores above
  the entry, and the result is the sum from zero of the rows divided by 131072, reshaped to one element.
-/
import proofs.«428295_j35270271434962_3_alg».proof.Proof.RefRead
import proofs.«428295_j35270271434962_3_alg».proof.Proof.RowLoss
import Idealize.ShloMosaic.Lib.ValueIdx

noncomputable section

namespace Cert.ReferenceIdeal.CellRef

open Cert.ReferenceIdeal Cert.ReferenceIdeal.Gen Cert.ReferenceIdeal.ReadP Cert.CellLoss
open Idealize.ShloMosaic Idealize.ShloMosaic.ValueIdx Cert.LibOneHotTake

section
variable (x : (⟨S131072x256, .f32⟩ : BufTy).Contents (Elt Ideal)) (l : (⟨S131072, .i32⟩ : BufTy).Contents (Elt Ideal))
  (hl : ∀ p : Fin 131072, (l (ix1 p)).toNat < 256)
include hl

/-! ## The index `take_along_axis` gathers at -/

/-- Row p's start index is its label, unchanged. -/
theorem startIdx_apply (p : Fin 131072) :
    val_main_call0_v5 (F := Ideal) l (ix3 p (0 : Fin 1) (0 : Fin 1)) = l (ix1 p) := by
  have e5 : idx_main_call0_v5 (ix3 p (0 : Fin 1) (0 : Fin 1)) = ix2 p (0 : Fin 1) := funext fun a => Fin.ext (by
    match a with
    | ⟨0, _⟩ => show ((p.val * 1 + 0) * 1 + 0) / 1 = p.val; omega
    | ⟨1, _⟩ => rfl)
  have e0 : idx_main_v0 (ix2 p (0 : Fin 1)) = ix1 p := funext fun a => Fin.ext (by
    match a with
    | ⟨0, _⟩ => rfl)
  rw [val_main_call0_v5_apply, e5, val_main_call0_v4_apply, val_main_call0_v1_apply, val_main_v0_apply, e0,
    val_main_call0_v0_apply, val_main_call0_c_apply, slt_zero_of_small _ (by have := hl p; omega), select_zero]

/-- The in-range test holds at every index. -/
theorem inRange_apply (i : S131072x1x1.Idx) : val_main_call0_v11 (F := Ideal) l i = 1#1 := by
  obtain ⟨p, q, s, rfl⟩ : ∃ (p : Fin 131072) (q : Fin 1) (s : Fin 1), i = ix3 p q s := ⟨i 0, i 1, i 2, eq_ix3 i⟩
  obtain rfl : q = 0 := Subsingleton.elim _ _
  obtain rfl : s = 0 := Subsingleton.elim _ _
  rw [val_main_call0_v11_apply, val_main_call0_v7_apply, val_main_call0_v10_apply, startIdx_apply l hl p,
    val_main_call0_v6_apply, val_main_call0_c_2_apply, val_main_call0_v9_apply, val_main_call0_v8_apply,
    val_main_call0_c_1_apply, sge_zero_of_small _ (by have := hl p; omega), sle_of_small _ 255 (by decide) (by have := hl p; omega)]
  rfl

/-- So the mask that keeps the gathered entry is 1 at every row. -/
theorem keep_apply (j : S131072x1.Idx) : val_main_call0_v12 (F := Ideal) l j = 1#1 := by
  unfold val_main_call0_v12
  exact reduce_andi_of_forall _ _ _ _ rfl (inRange_apply l hl) j

/-! ## The gathered entry -/

/-- The gather's dimension numbers: row p of the result reads row p of the scores (a batching axis) at the column its
    start index names (the collapsed axis), clamped into the row — the general `rowTakeDims` at [131072, 256]. -/
abbrev takeDims := gather_S131072x256_S131072x1x1_S131072x1_n_1_0_0_1_2_11

/-- Row p's gathered value is its score in the label's column. -/
theorem gathered_apply (p : Fin 131072) :
    val_main_call0_v13 (F := Ideal) x l (ix2 p (0 : Fin 1))
      = x (ix2 p ⟨(l (ix1 p)).toNat % 256, Nat.mod_lt _ (by decide)⟩) := by
  unfold val_main_call0_v13
  refine (gather_rowTake_apply (by decide) takeDims.wf x (val_main_call0_v5 (F := Ideal) l) p).trans ?_
  refine congrArg x (congrArg (ix2 p) (Fin.ext ?_))
  show min (val_main_call0_v5 (F := Ideal) l (ix3 p (0 : Fin 1) (0 : Fin 1))).toInt.toNat (256 - 1) = (l (ix1 p)).toNat % 256
  rw [startIdx_apply l hl p, clamp_of_small _ (256 - 1) (by decide) (by have := hl p; omega), Nat.mod_eq_of_lt (hl p)]

/-- The value `take_along_axis` returns for row p: the same entry (its mask keeps the gathered value). -/
theorem entry_apply (p : Fin 131072) :
    val_main_v1 (F := Ideal) x l (ix2 p (0 : Fin 1)) = x (ix2 p ⟨(l (ix1 p)).toNat % 256, Nat.mod_lt _ (by decide)⟩) := by
  rw [val_main_v1_apply, keep_apply l hl, select_one, gathered_apply x l hl p]

/-! ## A row, and the mean -/

/-- Row p of the summed vector is the row's loss. -/
theorem row_apply (p : Fin 131072) : val_main_v11 (F := Ideal) x l (ix1 p) = rowLossAt x l p := by
  have e2 : idx_main_v2 (ix1 p) = ix2 p (0 : Fin 1) := funext fun a => Fin.ext (by
    match a with
    | ⟨0, _⟩ => show p.val / 1 = p.val; omega
    | ⟨1, _⟩ => rfl)
  have e10 : ∀ k : Fin 256, idx_main_v10 (ix1 p) k = ix2 p k := fun k => funext fun a => Fin.ext (by
    match a with
    | ⟨0, _⟩ => rfl
    | ⟨1, _⟩ => rfl)
  have e7 : ∀ k : Fin 256, idx_main_v7 (ix2 p k) = ix2 p (0 : Fin 1) := fun k => funext fun a => Fin.ext (by
    match a with
    | ⟨0, _⟩ => rfl
    | ⟨1, _⟩ => rfl)
  rw [val_main_v11_apply, val_main_v6_apply, val_main_v5_apply, val_main_cst_0_apply, val_main_v4_apply, val_main_v2_apply, e2,
    entry_apply x l hl p, val_main_v3_apply, val_main_cst_apply, val_main_v10_apply,
    show val_main_cst_2 (F := Ideal) (Shape.Idx.first h_S_) = (0 : EReal) from Ideal.ofBits_zero_f32]
  unfold rowLossAt rowLoss marginSum
  simp only [Ideal.addf_def, Ideal.hostDivf_def, zero_add]
  refine congrArg₂ (· + ·) rfl (Finset.sum_congr rfl fun k _ => ?_)
  rw [e10 k, val_main_v9_apply, val_main_v8_apply, val_main_v7_apply, e7 k, entry_apply x l hl p, val_main_call1_v1_apply,
    val_main_call1_v0_apply, val_main_cst_1_apply]
  rfl

/-- THE REFERENCE'S RESULT: the mean of the rows' losses. -/
theorem result_eq : val_main_v14 (F := Ideal) x l = Cert.CellLoss.result x l := by
  funext i
  unfold val_main_v14
  rw [shapeCast_apply _ shapeCasts_S_S1 i ix0 (by
    have h1 := (S_.rowMajor ix0).isLt
    have h2 := (S1.rowMajor i).isLt
    have e1 : S_.numel = 1 := by decide
    have e2 : S1.numel = 1 := by decide
    omega), val_main_v13_apply, val_main_v12_apply]
  unfold Cert.CellLoss.result meanLoss
  show Ideal.div (cZero + ∑ j, val_main_v11 (F := Ideal) x l j) cRows = _
  refine congrArg (fun s => Ideal.div (cZero + s) cRows) (Finset.sum_congr rfl fun j _ => ?_)
  have ej : j = ix1 (⟨(j 0).val, (j 0).isLt⟩ : Fin 131072) := funext fun a => Fin.ext (by
    match a with
    | ⟨0, _⟩ => rfl)
  exact (congrArg (val_main_v11 (F := Ideal) x l) ej).trans (row_apply x l hl _)

end

end Cert.ReferenceIdeal.CellRef

end
-- ==== Proof.lean ====
/-
  The claim: the Pallas cell-loss kernel and its jnp reference compute the same number over the extended reals.

  For scores x[131072, 256] and labels l[131072] both programs return the one element
      (0 + Σ_p ( 1 / (g_p + c) + Σ_k [x_pk > g_p] · x_pk )) / 131072,        c the f32 literal 0.1,
  where g_p is row p's true-class score. The reference takes g_p = x[p, l_p] by `take_along_axis`; the kernel takes it
  as the sum of the row against the one-hot mask [k = l_p]. The two agree exactly where every label is a column,
  0 ≤ l_p < 256 — the precondition's second conjunct, the labels' own range, outside which the reference wraps a
  negative label round or returns its fill word: there the mask has one set column, the other 255 terms are the
  literal zero, and 0 + a = a for every extended real a. Everything else is the same operations on the same literals
  in the same order, so no further law, and no finiteness of the scores, is used.

  The frames of the two kernel programs are the generated ones; the reference has no kernel, and its frame is its run
  with the result dropped. The ideal pass rewrote nothing, so `preserves` is trivial. For `algebraic`:
  Proof/LabelRange.lean reads the label range out of the precondition; Proof/BlockRows.lean, KernelArray.lean and
  KernelRun.lean read the kernel's program as values (a block row by row, the blocks as one column, the host lines
  round the region); Proof/RefValue.lean reads the reference's; Proof/RowLoss.lean holds the functions both are
  stated against and the one law (`oneHotPick_eq`).
-/
import proofs.«428295_j35270271434962_3_alg».proof.Defs
import proofs.«428295_j35270271434962_3_alg».proof.Proof.Gen.Kernel
import proofs.«428295_j35270271434962_3_alg».proof.Proof.Gen.Kernel.Skeleton
import proofs.«428295_j35270271434962_3_alg».proof.Proof.Gen.Kernel.Launch
import proofs.«428295_j35270271434962_3_alg».proof.Proof.Gen.Kernel.Points
import proofs.«428295_j35270271434962_3_alg».proof.Proof.Gen.Kernel.Frame
import proofs.«428295_j35270271434962_3_alg».proof.Proof.Gen.KernelIdeal
import proofs.«428295_j35270271434962_3_alg».proof.Proof.Gen.KernelIdeal.Skeleton
import proofs.«428295_j35270271434962_3_alg».proof.Proof.Gen.KernelIdeal.Launch
import proofs.«428295_j35270271434962_3_alg».proof.Proof.Gen.KernelIdeal.Points
import proofs.«428295_j35270271434962_3_alg».proof.Proof.Gen.KernelIdeal.Frame
import proofs.«428295_j35270271434962_3_alg».proof.Proof.Gen.ReferenceIdeal
import proofs.«428295_j35270271434962_3_alg».proof.Proof.Gen.Pre_finite_inputs
import proofs.«428295_j35270271434962_3_alg».proof.Proof.RefRun
import proofs.«428295_j35270271434962_3_alg».proof.Proof.RefRead
import proofs.«428295_j35270271434962_3_alg».proof.Proof.LabelRange
import proofs.«428295_j35270271434962_3_alg».proof.Proof.KernelRun
import proofs.«428295_j35270271434962_3_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end at the mean of the rows' losses, `Cert.CellLoss.result` of the arguments: the kernel's because, the
    labels being columns, its one-hot sums are the entries; the reference's because its gather then reads those
    entries unclamped and unmasked. -/
theorem algebraic : Cert.algebraic_KernelIdeal_ReferenceIdeal := by
  intro m ρ m' ρ' hpre hagree
  have hcol : ∀ (c : Dev Cert.KernelIdeal.nD) (p : Cert.KernelIdeal.S131072.Idx),
      (m ((c : Thread Cert.KernelIdeal.nD Cert.KernelIdeal.τ).loc Cert.KernelIdeal.main_arg1) p).toNat < 256 :=
    fun c p => Cert.CellLoss.label_lt _ _ (hpre c) p
  refine ⟨fun c => Cert.CellLoss.result (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.CellValue.run m ρ hcol, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v14_eq, (hagree c).1, (hagree c).2]
  exact Cert.ReferenceIdeal.CellRef.result_eq _ _ fun p => hcol c (ix1 p)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
